-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x128x128 : Shape := ⟨3, ![1024, 128, 128]⟩
abbrev S117x64 : Shape := ⟨2, ![117, 64]⟩
abbrev S64x64 : Shape := ⟨2, ![64, 64]⟩
abbrev S128x64 : Shape := ⟨2, ![128, 64]⟩
abbrev S_ : Shape := ⟨0, ![]⟩

class Facts : Prop where
  bcast_S_S1024x128x128 : S_.BroadcastsInDim S1024x128x128 (![] : Fin 0 → Fin S1024x128x128.rank)
  reducesTo_S1024x128x128_S_d0_1_2 : S1024x128x128.ReducesTo [0, 1, 2] S_
  h_S_ : 0 < S_.numel
  bcast_S_S117x64 : S_.BroadcastsInDim S117x64 (![] : Fin 0 → Fin S117x64.rank)
  reducesTo_S117x64_S_d0_1 : S117x64.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg0 : IVec S1024x128 32) (main_arg5 : FVec F S128x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_c_8 : IVec S_ 32 := constantI S_ 32 0#32
  let main_v24 : IVec S1024x128 32 := broadcastInDim S1024x128 ![] bcast_S_S1024x128 main_c_8
  let main_v25 : IVec S1024x128 1 := cmpi .sge main_arg0 main_v24
  let main_c_9 : IVec S_ 1 := constantI S_ 1 1#1
  let main_v26 : IVec S_ 1 := (fun x v => Host.reduce IntOp.andi x v reducesTo_S1024x128_S_d0_1 h_S_) main_v25 main_c_9
  let main_v27 : IVec S_ 1 := andi main_v23 main_v26
  main_v27

def fn {F : FTy → Type} [FloatOps F] (main_arg0 : IVec S1024x128 32) (main_arg1 : FVec F S1024x128x128 .f32) (main_arg2 : FVec F S117x64 .f32) (main_arg3 : FVec F S64x64 .f32) (main_arg4 : FVec F S64x64 .f32) (main_arg5 : FVec F S128x64 .f32) : IVec S_ 1 :=
  let main_v0 : FVec F S1024x128x128 .f32 := Host.absf main_arg1
  let main_cst : FVec F S_ .f32 := constant S_ .f32 0x7F800000#32
  let main_v1 : FVec F S1024x128x128 .f32 := broadcastInDim S1024x128x128 ![] bcast_S_S1024x128x128 main_cst
  let main_v2 : IVec S1024x128x128 1 := cmpf .olt main_v0 main_v1
  let main_c : IVec S_ 1 := constantI S_ 1 1#1
  let main_v3 : IVec S_ 1 := (fun x v => Host.reduce IntOp.andi x v reducesTo_S1024x128x128_S_d0_1_2 h_S_) main_v2 main_c
  let main_v4 : FVec F S117x64 .f32 := Host.absf main_arg2
  let main_cst_0 : FVec F S_ .f32 := constant S_ .f32 0x7F800000#32
  let main_v5 : FVec F S117x64 .f32 := broadcastInDim S117x64 ![] bcast_S_S117x64 main_cst_0
  let main_v6 : IVec S117x64 1 := cmpf .olt main_v4 main_v5
  let main_c_1 : IVec S_ 1 := constantI S_ 1 1#1
  let main_v7 : IVec S_ 1 := (fun x v => Host.reduce IntOp.andi x v reducesTo_S117x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg5 main_v13 main_v16
-- ==== Kernel.lean ====
abbrev S1024x128 : Shape := ⟨2, ![1024, 128]⟩
abbrev S1024x128x128 : Shape := ⟨3, ![1024, 128, 128]⟩
abbrev S117x64 : Shape := ⟨2, ![117, 64]⟩
abbrev S64x64 : Shape := ⟨2, ![64, 64]⟩
abbrev S128x64 : Shape := ⟨2, ![128, 64]⟩
abbrev S_ : Shape := ⟨0, ![]⟩
abbrev S64x128 : Shape := ⟨2, ![64, 128]⟩
abbrev S64x128x128 : Shape := ⟨3, ![64, 128, 128]⟩
abbrev S64x128x117 : Shape := ⟨3, ![64, 128, 117]⟩
abbrev S64x128x1 : Shape := ⟨3, ![64, 128, 1]⟩
abbrev S8192x117 : Shape := ⟨2, ![8192, 117]⟩
abbrev S8192x64 : Shape := ⟨2, ![8192, 64]⟩
abbrev S64x128x64 : Shape := ⟨3, ![64, 128, 64]⟩
abbrev S8192x128 : Shape := ⟨2, ![8192, 128]⟩

abbrev nBuf : Space → Nat
  | .hbm => 19
  | .vmem => 9
  | .smem => 0
  | _ => 0

abbrev bufTy : (tb : Table) → Fin (tcTables nBuf tb) → BufTy
  | .hbm, ⟨0, _⟩ => ⟨S1024x128, .i32⟩
  | .hbm, ⟨1, _⟩ => ⟨S1024x128x128, .f32⟩
  | .hbm, ⟨2, _⟩ => ⟨S117x64, .f32⟩
  | .hbm, ⟨3, _⟩ => ⟨S64x64, .f32⟩
  | .hbm, ⟨4, _⟩ => ⟨S64x64, .f32⟩
  | .hbm, ⟨5, _⟩ => ⟨S128x64, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024x128, .i32⟩
  | .hbm, ⟨10, _⟩ => ⟨S1024x128, .i32⟩
  | .hbm, ⟨11, _⟩ => ⟨S_, .i32⟩
  | .hbm, ⟨12, _⟩ => ⟨S1024x128, .i32⟩
  | .hbm, ⟨13, _⟩ => ⟨S1024x128, .i32⟩
  | .hbm, ⟨14, _⟩ => ⟨S64x64, .f32⟩
  | .hbm, ⟨15, _⟩ => ⟨S117x64, .f32⟩
  | .hbm, ⟨16, _⟩ => ⟨S64x64, .f32⟩
  | .hbm, ⟨17, _⟩ => ⟨S64x128, .f32⟩
  | .hbm, ⟨18, _⟩ => ⟨S1024x128, .f32⟩
  | .local _ .vmem, ⟨0, _⟩ => ⟨S64x128x128, .f32⟩
  | .local _ .vmem, ⟨1, _⟩ => ⟨S64x128x128, .f32⟩
  | .local _ .vmem, ⟨2, _⟩ => ⟨S64x128, .i32⟩
  | .local _ .vmem, ⟨3, _⟩ => ⟨S64x128, .i32⟩
  | .local _ .vmem, ⟨4, _⟩ => ⟨S117x64, .f32⟩
  | .local _ .vmem, ⟨5, _⟩ => ⟨S64x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | _, _ => ⟨S1024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S117x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x128 : S_.BroadcastsInDim S1024x128 (![] : Fin 0 → Fin S1024x128.rank)
  transposes_S64x64_S64x64_1_0 : S64x64.Transposes [1, 0] S64x64
  transposes_S128x64_S64x128_1_0 : S128x64.Transposes [1, 0] S64x128
  inb_S64x128x128_S64x128x128_0_0_0 : ∀ a, (![0, 0, 0] : Fin 3 → Nat) a + S64x128x128.size a ≤ S64x128x128.size a
  h_S64x128x128 : 0 < S64x128x128.numel
  bitsLt_bf16_f32 : FTy.bits .bf16 < FTy.bits .f32
  reduces_S64x128x128_S64x128 : S64x128x128.Reduces [1] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128x117_d2_w32 : S64x128x117.Iotas .tc 32 [2]
  shapeCasts_S64x128_S64x128x1 : S64x128.ShapeCasts S64x128x1
  broadcasts_S64x128x1_S64x128x117 : S64x128x1.Broadcasts S64x128x117
  natLt_1_32 : 1 < 32
  shapeCasts_S64x128x117_S8192x117 : S64x128x117.ShapeCasts S8192x117
  inb_S117x64_S117x64_0_0 : ∀ a, (![0, 0] : Fin 2 → Nat) a + S117x64.size a ≤ S117x64.size a
  h_S117x64 : 0 < S117x64.numel
  shapeCasts_S117x64_S117x64 : S117x64.ShapeCasts S117x64
  shapeCasts_S8192x64_S64x128x64 : S8192x64.ShapeCasts S64x128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x128x64_S8192x64 : S64x128x64.ShapeCasts S8192x64
  shapeCasts_S8192x128_S64x128x128 : S8192x128.ShapeCasts S64x128x128
  broadcasts_S64x128x1_S64x128x128 : S64x128x1.Broadcasts S64x128x128
  dot_S117x64_S64x64_S117x64_1_0_0_1_n_n_wf : DotDims.WF S117x64 S64x64 S117x64 [1] [0] [0] [1] [] []
  dot_S8192x117_S117x64_S8192x64_1_0_0_1_n_n_wf : DotDims.WF S8192x117 S117x64 S8192x64 [1] [0] [0] [1] [] []
  dot_S64x128x128_S64x128x64_S64x128x64_2_1_1_2_0_0_wf : DotDims.WF S64x128x128 S64x128x64 S64x128x64 [2] [1] [1] [2] [0] [0]
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S1024x128x128.size a
  hwx0_0 : ∀ i : grid0.Coords, EltTy.bits .f32 = 32 ∨ (Rect.block (s := S1024x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x128.size a
  hwx0_1 : ∀ i : grid0.Coords, EltTy.bits .i32 = 32 ∨ (Rect.block (s := S1024x128) S64x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S117x64.size a ≤ S117x64.size a
  hwx0_2 : ∀ i : grid0.Coords, EltTy.bits .f32 = 32 ∨ (Rect.block (s := S117x64) S117x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S1024x128.size a
  hwx0_5 : ∀ i : grid0.Coords, EltTy.bits .f32 = 32 ∨ (Rect.block (s := S1024x128) S64x128.size (cc0_transform_5 i) (hinb0_5 i)).WholeWords (EltTy.packing .f32)

variable [Facts₀]

def dot_S117x64_S64x64_S117x64_1_0_0_1_n_n : DotDims S117x64 S64x64 S117x64 where
  lhsContracting := [1]
  rhsContracting := [0]
  lhsNonContracting := [0]
  rhsNonContracting := [1]
  lhsBatch := []
  rhsBatch := []
  wf := dot_S117x64_S64x64_S117x64_1_0_0_1_n_n_wf
def dot_S8192x117_S117x64_S8192x64_1_0_0_1_n_n : DotDims S8192x117 S117x64 S8192x64 where
  lhsContracting := [1]
  rhsContracting := [0]
  lhsNonContracting := [0]
  rhsNonContracting := [1]
  lhsBatch := []
  rhsBatch := []
  wf := dot_S8192x117_S117x64_S8192x64_1_0_0_1_n_n_wf
def dot_S64x128x128_S64x128x64_S64x128x64_2_1_1_2_0_0 : DotDims S64x128x128 S64x128x64 S64x128x64 where
  lhsContracting := [2]
  rhsContracting := [1]
  lhsNonContracting := [1]
  rhsNonContracting := [2]
  lhsBatch := [0]
  rhsBatch := [0]
  wf := dot_S64x128x128_S64x128x64_S64x128x64_2_1_1_2_0_0_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg1) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S117x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x128x128 : Shape := ⟨3, ![1024, 128, 128]⟩
abbrev S117x64 : Shape := ⟨2, ![117, 64]⟩
abbrev S64x64 : Shape := ⟨2, ![64, 64]⟩
abbrev S128x64 : Shape := ⟨2, ![128, 64]⟩
abbrev S_ : Shape := ⟨0, ![]⟩
abbrev S1024x128x1 : Shape := ⟨3, ![1024, 128, 1]⟩
abbrev S1024x128x64 : Shape := ⟨3, ![1024, 128, 64]⟩

abbrev nBuf : Space → Nat
  | .hbm => 29
  | .vmem => 0
  | .smem => 0
  | _ => 0

abbrev bufTy : (tb : Table) → Fin (tcTables nBuf tb) → BufTy
  | .hbm, ⟨0, _⟩ => ⟨S1024x128, .i32⟩
  | .hbm, ⟨1, _⟩ => ⟨S1024x128x128, .f32⟩
  | .hbm, ⟨2, _⟩ => ⟨S117x64, .f32⟩
  | .hbm, ⟨3, _⟩ => ⟨S64x64, .f32⟩
  | .hbm, ⟨4, _⟩ => ⟨S64x64, .f32⟩
  | .hbm, ⟨5, _⟩ => ⟨S128x64, .f32⟩
  | .hbm, ⟨6, _⟩ => ⟨S_, .i32⟩
  | .hbm, ⟨7, _⟩ => ⟨S1024x128, .i32⟩
  | .hbm, ⟨8, _⟩ => ⟨S1024x128, .i1⟩
  | .hbm, ⟨9, _⟩ => ⟨S_, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S1024x128x1, .i32⟩
  | .hbm, ⟨14, _⟩ => ⟨S1024x128x64, .f32⟩
  | .hbm, ⟨15, _⟩ => ⟨S1024x128x64, .f32⟩
  | .hbm, ⟨16, _⟩ => ⟨S1024x128x64, .f32⟩
  | .hbm, ⟨17, _⟩ => ⟨S_, .f32⟩
  | .hbm, ⟨18, _⟩ => ⟨S1024x128x64, .f32⟩
  | .hbm, ⟨19, _⟩ => ⟨S1024x128x64, .f32⟩
  | .hbm, ⟨20, _⟩ => ⟨S1024x128x64, .f32⟩
  | .hbm, ⟨21, _⟩ => ⟨S1024x128x64, .f32⟩
  | .hbm, ⟨22, _⟩ => ⟨S_, .f32⟩
  | .hbm, ⟨23, _⟩ => ⟨S1024x128x64, .f32⟩
  | .hbm, ⟨24, _⟩ => ⟨S1024x128x64, .f32⟩
  | .hbm, ⟨25, _⟩ => ⟨S1024x128x64, .f32⟩
  | .hbm, ⟨26, _⟩ => ⟨S1024x128x128, .f32⟩
  | .hbm, ⟨27, _⟩ => ⟨S_, .f32⟩
  | .hbm, ⟨28, _⟩ => ⟨S1024x128, .f32⟩
  | _, _ => ⟨S1024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S_S1024x128x64 : S_.BroadcastsInDim S1024x128x64 (![] : Fin 0 → Fin S1024x128x64.rank)
  reducesTo_S1024x128x128_S1024x128_d1 : S1024x128x128.ReducesTo [1] S1024x128
  h_S_ : 0 < S_.numel
  gather_S117x64_S1024x128x1_S1024x128x64_2_0_n_n_0_2_164_wf : GatherDims.WF S117x64 S1024x128x1 S1024x128x64 [2] [0] [] [0] [] 2 ![1, 64]
  dot_S1024x128x128_S1024x128x64_S1024x128x64_2_1_1_2_0_0_wf : DotDims.WF S1024x128x128 S1024x128x64 S1024x128x64 [2] [1] [1] [2] [0] [0]
  dot_S1024x128x64_S64x64_S1024x128x64_2_1_01_0_n_n_wf : DotDims.WF S1024x128x64 S64x64 S1024x128x64 [2] [1] [0, 1] [0] [] []
  dot_S1024x128x64_S128x64_S1024x128x128_2_1_01_0_n_n_wf : DotDims.WF S1024x128x64 S128x64 S1024x128x128 [2] [1] [0, 1] [0] [] []

variable [Facts₀]

def gather_S117x64_S1024x128x1_S1024x128x64_2_0_n_n_0_2_164 : GatherDims S117x64 S1024x128x1 S1024x128x64 where
  offsetDims := [2]
  collapsedSliceDims := [0]
  operandBatchingDims := []
  startIndicesBatchingDims := []
  startIndexMap := [0]
  indexVectorDim := 2
  sliceSizes := ![1, 64]
  wf := gather_S117x64_S1024x128x1_S1024x128x64_2_0_n_n_0_2_164_wf
def dot_S1024x128x128_S1024x128x64_S1024x128x64_2_1_1_2_0_0 : DotDims S1024x128x128 S1024x128x64 S1024x128x64 where
  lhsContracting := [2]
  rhsContracting := [1]
  lhsNonContracting := [1]
  rhsNonContracting := [2]
  lhsBatch := [0]
  rhsBatch := [0]
  wf := dot_S1024x128x128_S1024x128x64_S1024x128x64_2_1_1_2_0_0_wf
def dot_S1024x128x64_S64x64_S1024x128x64_2_1_01_0_n_n : DotDims S1024x128x64 S64x64 S1024x128x64 where
  lhsContracting := [2]
  rhsContracting := [1]
  lhsNonContracting := [0, 1]
  rhsNonContracting := [0]
  lhsBatch := []
  rhsBatch := []
  wf := dot_S1024x128x64_S64x64_S1024x128x64_2_1_01_0_n_n_wf
def dot_S1024x128x64_S128x64_S1024x128x128_2_1_01_0_n_n : DotDims S1024x128x64 S128x64 S1024x128x128 where
  lhsContracting := [2]
  rhsContracting := [1]
  lhsNonContracting := [0, 1]
  rhsNonContracting := [0]
  lhsBatch := []
  rhsBatch := []
  wf := dot_S1024x128x64_S128x64_S1024x128x128_2_1_01_0_n_n_wf

class Facts : Prop extends Facts₀ where

variable [Facts]
-- ==== Proof.GraphNet.lean ====
/-
  Three rounds of message passing on one graph, then a sum over the nodes.

  One graph has an adjacency matrix `A` (node × node), node features `H` (node × feature) and weight matrices
  stored output-major (`W o d`). A round sends `X` to `A · X` (message passing: every node sums its
  neighbours' features) and then to `(A · X) · Wᵀ` (a linear map applied node by node); the first two rounds end
  in a rectifier. The readout sums the third round's result over the nodes.

  `readout` is that computation in this order. `foldedReadout` rearranges it twice. The first linear map is
  applied to the features BEFORE the first message passing, `(A · H) · W₁ᵀ = A · (H · W₁ᵀ)`. And the last message
  passing and the sum over the nodes are folded into a weighting of the nodes by the adjacency matrix's column sums:
      Σ_i Σ_d (Σ_j A i j · X j d) · W o d  =  Σ_j (Σ_i A i j) · (Σ_d X j d · W o d).
  Both steps move a factor across a sum, so they are laws of the real numbers; on the extended reals
  `x · (a + b)` and `x · a + x · b` can differ at infinities. `foldedReadout_eq_readout` proves them for arrays
  whose entries are all real, by computing in ℝ.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.GraphNet

open scoped BigOperators

/-! ## Entries that are real numbers -/

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The maximum of two reals, taken among the extended reals, is their maximum among the reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem IsReal.max {x y : EReal} (hx : IsReal x) (hy : IsReal y) : IsReal (max x y) := by
  obtain ⟨a, rfl⟩ := hx; obtain ⟨b, rfl⟩ := hy; exact ⟨_, coe_max a b⟩

/-- A finite sum of reals, taken among the extended reals, is their sum among the reals. -/
theorem coe_sum {κ : Type} (S : Finset κ) (f : κ → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

theorem isReal_sum {κ : Type} (S : Finset κ) (f : κ → EReal) (hf : ∀ k, IsReal (f k)) : IsReal (∑ k ∈ S, f k) := by
  choose r hr using hf
  exact ⟨∑ k ∈ S, r k, by rw [← coe_sum]; exact Finset.sum_congr rfl fun k _ => hr k⟩

/-! ## The table row an id selects -/

/-- The row of a 117-row table that a 32-bit id selects when it is read as a signed integer and clamped into the
    table: a negative id selects row 0, an id of 117 or more row 116. -/
def row (g : BitVec 32) : Fin 117 := ⟨min g.toInt.toNat 116, by omega⟩

theorem row_val (g : BitVec 32) : (row g).val = min g.toInt.toNat 116 := rfl

/-! ## The layers -/

variable {ι δ ο : Type} [Fintype ι] [Fintype δ] [Fintype ο]

/-- Message passing: node `i` sums the features of all nodes `j`, weighted by `A i j`. -/
def pass (A : ι → ι → EReal) (X : ι → δ → EReal) : ι → δ → EReal := fun i d => ∑ j, A i j * X j d

/-- The linear map applied node by node, its weights stored output-major: `X · Wᵀ`. -/
def lin (X : ι → δ → EReal) (W : ο → δ → EReal) : ι → ο → EReal := fun i o => ∑ d, X i d * W o d

/-- The rectifier, entry by entry. -/
def relu (X : ι → δ → EReal) : ι → δ → EReal := fun i d => max (X i d) 0

/-- Three rounds and the sum over the nodes, in the order the layers are written. -/
def readout (A : ι → ι → EReal) (H : ι → δ → EReal) (W₁ W₂ : δ → δ → EReal) (W₃ : ο → δ → EReal) : ο → EReal :=
  fun o => ∑ i, lin (pass A (relu (lin (pass A (relu (lin (pass A H) W₁))) W₂))) W₃ i o

/-- The rearranged computation over features `P` that have ALREADY been through the first linear map: two message
    passings, the second linear map, and then the third linear map weighted by the column sums of `A`. -/
def foldedReadout (A : ι → ι → EReal) (P : ι → δ → EReal) (W₂ : δ → δ → EReal) (W₃ : ο → δ → EReal) : ο → EReal :=
  fun o => ∑ j, (∑ i, A i j) * lin (relu (lin (pass A (relu (pass A P))) W₂)) W₃ j o

theorem isReal_pass {A : ι → ι → EReal} {X : ι → δ → EReal} (hA : ∀ i j, IsReal (A i j)) (hX : ∀ j d, IsReal (X j d)) :
    ∀ i d, IsReal (pass A X i d) := fun i d => isReal_sum _ _ fun j => (hA i j).mul (hX j d)

theorem isReal_lin {X : ι → δ → EReal} {W : ο → δ → EReal} (hX : ∀ i d, IsReal (X i d)) (hW : ∀ o d, IsReal (W o d)) :
    ∀ i o, IsReal (lin X W i o) := fun i o => isReal_sum _ _ fun d => (hX i d).mul (hW o d)

theorem isReal_relu {X : ι → δ → EReal} (hX : ∀ i d, IsReal (X i d)) : ∀ i d, IsReal (relu X i d) :=
  fun i d => (hX i d).max isReal_zero

/-! ## The two rearrangements, for real entries -/

/-- A linear map after a message passing is the message passing of the mapped features:
    `(A · X) · Wᵀ = A · (X · Wᵀ)`. -/
theorem lin_pass {A : ι → ι → EReal} {X : ι → δ → EReal} {W : ο → δ → EReal} (hA : ∀ i j, IsReal (A i j))
    (hX : ∀ j d, IsReal (X j d)) (hW : ∀ o d, IsReal (W o d)) : lin (pass A X) W = pass A (lin X W) := by
  choose a ha using hA; choose x hx using hX; choose w hw using hW
  funext i o
  unfold lin pass
  simp only [ha, hx, hw, ← EReal.coe_mul, coe_sum]
  rw [EReal.coe_eq_coe_iff]
  simp only [Finset.sum_mul, Finset.mul_sum]
  rw [Finset.sum_comm]
  exact Finset.sum_congr rfl fun j _ => Finset.sum_congr rfl fun d _ => by ring

/-- The sum over the nodes of a linear map after a message passing weights node `j`'s mapped features by the
    `j`-th column sum of the adjacency matrix. -/
theorem sum_lin_pass {A : ι → ι → EReal} {X : ι → δ → EReal} {W : ο → δ → EReal} (hA : ∀ i j, IsReal (A i j))
    (hX : ∀ j d, IsReal (X j d)) (hW : ∀ o d, IsReal (W o d)) (o : ο) :
    ∑ i, lin (pass A X) W i o = ∑ j, (∑ i, A i j) * lin X W j o := by
  choose a ha using hA; choose x hx using hX; choose w hw using hW
  unfold lin pass
  simp only [ha, hx, hw, ← EReal.coe_mul, coe_sum]
  rw [EReal.coe_eq_coe_iff]
  simp only [Finset.sum_mul, Finset.mul_sum]
  -- left: sums over (i, d, j); right: over (j, d, i). Bring both to (d, j, i).
  rw [Finset.sum_comm]
  conv_rhs => rw [Finset.sum_comm]
  refine Finset.sum_congr rfl fun d _ => ?_
  rw [Finset.sum_comm]
  exact Finset.sum_congr rfl fun j _ => Finset.sum_congr rfl fun i _ => by ring

/-- For real entries the rearranged computation, fed the features after the first linear map, is the readout. -/
theorem foldedReadout_eq_readout {A : ι → ι → EReal} {H : ι → δ → EReal} {W₁ W₂ : δ → δ → EReal} {W₃ : ο → δ → EReal}
    (hA : ∀ i j, IsReal (A i j)) (hH : ∀ j d, IsReal (H j d)) (hW₁ : ∀ o d, IsReal (W₁ o d))
    (hW₂ : ∀ o d, IsReal (W₂ o d)) (hW₃ : ∀ o d, IsReal (W₃ o d)) :
    foldedReadout A (lin H W₁) W₂ W₃ = readout A H W₁ W₂ W₃ := by
  funext o
  unfold foldedReadout readout
  rw [lin_pass hA hH hW₁]
  exact (sum_lin_pass hA
    (isReal_relu (isReal_lin (isReal_pass hA (isReal_relu (isReal_pass hA (isReal_lin hH hW₁)))) hW₂)) hW₃ o).symm

end Cert.GraphNet

end
-- ==== Proof.Inputs.lean ====
/-
  What the precondition says about the inputs.

  The precondition is a conjunction of six tests, each a "for all entries" reduced by `and` into one bit: five of the
  form |x| < +∞, over the adjacency array, the embedding table and the three weight matrices, and one of the form
  id ≥ 0 (signed) over the id array. An extended real whose absolute value max x (-x) lies strictly below +∞ is
  neither +∞ nor -∞ (the absolute value of either is +∞), so it is a real number. A 32-bit word that compares ≥ 0
  signed has a non-negative signed reading.
-/
import proofs.«424819_j10505490006484_3_alg».proof.Pre_finite_inputs
import proofs.«424819_j10505490006484_3_alg».proof.Proof.GraphNet
import Idealize.ShloMosaic.Lib.ReduceAll
import Idealize.ShloMosaic.Lib.ValueIdx

noncomputable section

namespace Cert.Inputs
open Idealize.ShloMosaic Cert.Pre_finite_inputs Cert.GraphNet

/-- The scalar shape has exactly one index. -/
private instance : Subsingleton S_.Idx := ⟨fun a b => funext fun d => d.elim0⟩

/-- The f32 pattern 0x7F800000 denotes +∞. -/
private theorem inf_eq_top : Ideal.ofBits .f32 0x7F800000#32 = (⊤ : EReal) := by
  simp [Ideal.ofBits, Ideal.ieee]

/-- An extended real whose absolute value is strictly below +∞ is a real number. -/
private theorem isReal_of_abs_lt_top (x : EReal) (h : max x (-x) < ⊤) : IsReal x := by
  induction x using EReal.rec with
  | bot => simp at h
  | coe r => exact ⟨r, rfl⟩
  | top => simp at h

/-- One entry of a test `|X| < +∞`, the bound being the broadcast scalar +∞: the entry is a real number. -/
private theorem isReal_of_test {s : Shape} (hb : S_.BroadcastsInDim s (![] : Fin 0 → Fin s.rank))
    (X : FVec Ideal s .f32) (i : s.Idx)
    (h : cmpf .olt (Host.absf X) (broadcastInDim s ![] hb (constant (F := Ideal) S_ .f32 0x7F800000#32)) i = 1#1) :
    IsReal (X i) := by
  have h' : Ideal.cmp .olt (max (X i) (-(X i))) (Ideal.ofBits .f32 0x7F800000#32) = 1#1 := h
  rw [inf_eq_top] at h'
  refine isReal_of_abs_lt_top _ ?_
  by_contra hn
  simp [Ideal.cmp, hn] at h'

/-- Under the precondition every float input is real-valued and every id is non-negative. -/
theorem of_pre [Cert.Pre_finite_inputs.Facts] (g : IVec S1024x128 32) (A : FVec Ideal S1024x128x128 .f32)
    (E : FVec Ideal S117x64 .f32) (W₁ W₂ : FVec Ideal S64x64 .f32) (W₃ : FVec Ideal S128x64 .f32)
    (h : Cert.Pre_finite_inputs.fn (F := Ideal) g A E W₁ W₂ W₃ = fun _ => 1#1) :
    (∀ i, IsReal (A i)) ∧ (∀ i, IsReal (E i)) ∧ (∀ i, IsReal (W₁ i)) ∧ (∀ i, IsReal (W₂ i)) ∧ (∀ i, IsReal (W₃ i))
      ∧ (∀ i, 0 ≤ (g i).toInt) := by
  have h0 := congrFun h ValueIdx.ix0
  dsimp only [fn, fn_part1] at h0
  -- the conjunction, innermost test first: ((((A ∧ E) ∧ W₁) ∧ W₂) ∧ W₃) ∧ g
  obtain ⟨h5, hg⟩ := IntOp.andi_eq_one.1 h0
  obtain ⟨h4, hW₃⟩ := IntOp.andi_eq_one.1 h5
  obtain ⟨h3, hW₂⟩ := IntOp.andi_eq_one.1 h4
  obtain ⟨h2, hW₁⟩ := IntOp.andi_eq_one.1 h3
  obtain ⟨hA, hE⟩ := IntOp.andi_eq_one.1 h2
  refine ⟨fun i => ?_, fun i => ?_, fun i => ?_, fun i => ?_, fun i => ?_, fun i => ?_⟩
  · exact isReal_of_test _ A i (Host.reduce_andi_all _ _ _ _ _ hA i)
  · exact isReal_of_test _ E i (Host.reduce_andi_all _ _ _ _ _ hE i)
  · exact isReal_of_test _ W₁ i (Host.reduce_andi_all _ _ _ _ _ hW₁ i)
  · exact isReal_of_test _ W₂ i (Host.reduce_andi_all _ _ _ _ _ hW₂ i)
  · exact isReal_of_test _ W₃ i (Host.reduce_andi_all _ _ _ _ _ hW₃ i)
  · have hi := Host.reduce_andi_all _ _ _ _ _ hg i
    have hi' : IntOp.cmpi .sge (g i) (0#32) = 1#1 := hi
    have := IntOp.cmpi_sge.1 hi'
    simpa using this

end Cert.Inputs

end
-- ==== Proof.Reference.lean ====
/-
  The reference program read at an index.

  The reference embeds each node's id as a row of the table, runs three rounds of message passing followed by a
  linear map (the first two rounds ending in a rectifier), and sums the last round over the nodes. Read at batch
  entry `b` and output feature `o`, and with every id non-negative (so that the id itself is the start index of the
  table look-up, clamped into the table), its result is `Cert.GraphNet.readout` of graph `b`.
-/
import proofs.«424819_j10505490006484_3_alg».proof.Proof.Gen.ReferenceIdeal.Read
import proofs.«424819_j10505490006484_3_alg».proof.Proof.GraphNet
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.GraphNet

open scoped BigOperators

/-! ## The table look-up -/

/-- A non-negative id is not below zero, so the choice "id + 117 if id < 0, else id" is the id. -/
theorem select_of_nonneg (g : BitVec 32) (h : 0 ≤ g.toInt) :
    Scalar.select (IntOp.cmpi .slt g 0#32) (IntOp.addi g 117#32) g = g := by
  have hs : g.slt 0#32 = false := by
    rw [BitVec.slt, decide_eq_false_iff_not]
    simpa using h
  unfold Scalar.select IntOp.cmpi
  simp [hs]

/-- The start index of the look-up at `(b, j, 0)` is the id of node `j` of graph `b`. -/
theorem start_apply (x0 : (⟨S1024x128, .i32⟩ : BufTy).Contents (Elt Ideal)) (hg : ∀ i, 0 ≤ (x0 i : BitVec 32).toInt)
    (b : Fin 1024) (j : Fin 128) (z : Fin 1) :
    val_main_v5 (F := Ideal) x0 (ix3 b j z) = x0 (ix2 b j) := by
  have hi : idx_main_v5 (ix3 b j z) = ix2 b j := funext fun a => Fin.ext (by
    match a with
    | ⟨0, _⟩ => rfl
    | ⟨1, _⟩ => rfl)
  rw [val_main_v5_apply, hi, val_main_v4_apply, val_main_v1_apply, val_main_v3_apply, val_main_v0_apply, val_main_v2_apply,
    val_main_c_apply, val_main_c_0_apply]
  exact select_of_nonneg _ (hg _)

/-- The table look-up read at `(b, j, d)`: operand axis 0 is collapsed and takes the start index at `(b, j, 0)`, read as a
    signed integer and clamped into the table; operand axis 1 is the offset axis and takes the result's last
    coordinate. -/
theorem gather_apply {α : Type} (x : S117x64.Idx → α) (idx : IVec S1024x128x1 32) (b : Fin 1024) (j : Fin 128) (d : Fin 64) :
    Host.gather gather_S117x64_S1024x128x1_S1024x128x64_2_0_n_n_0_2_164 x idx (ix3 b j d)
      = x (ix2 (row (idx (ix3 b j 0))) d) := by
  unfold Host.gather
  congr 1
  funext a
  refine Fin.ext ?_
  match a with
  | ⟨0, _⟩ =>
    show gather_S117x64_S1024x128x1_S1024x128x64_2_0_n_n_0_2_164.start (ix3 b j d) idx 0
      + gather_S117x64_S1024x128x1_S1024x128x64_2_0_n_n_0_2_164.batchCoord (ix3 b j d) 0
      + gather_S117x64_S1024x128x1_S1024x128x64_2_0_n_n_0_2_164.offCoord (ix3 b j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S117x64.rank) ∈ gather_S117x64_S1024x128x1_S1024x128x64_2_0_n_n_0_2_164.startIndexMap
      from List.mem_singleton.mpr rfl)]
    have hsi : gather_S117x64_S1024x128x1_S1024x128x64_2_0_n_n_0_2_164.siIdx (ix3 b j d)
        ⟨List.idxOf (0 : Fin S117x64.rank) gather_S117x64_S1024x128x1_S1024x128x64_2_0_n_n_0_2_164.startIndexMap,
          List.idxOf_lt_length_iff.2 (List.mem_singleton.mpr rfl)⟩ = ix3 b j 0 := by
      funext c; refine Fin.ext ?_
      match c with
      | ⟨0, _⟩ => rfl
      | ⟨1, _⟩ => rfl
      | ⟨2, _⟩ => rfl
    rw [hsi]
    rfl
  | ⟨1, _⟩ =>
    show gather_S117x64_S1024x128x1_S1024x128x64_2_0_n_n_0_2_164.start (ix3 b j d) idx 1
      + gather_S117x64_S1024x128x1_S1024x128x64_2_0_n_n_0_2_164.batchCoord (ix3 b j d) 1
      + gather_S117x64_S1024x128x1_S1024x128x64_2_0_n_n_0_2_164.offCoord (ix3 b j d) 1 = d.val
    rw [GatherDims.batchCoord_eq_zero _ _ _ List.not_mem_nil]
    unfold GatherDims.start
    rw [dif_neg (show ¬(1 : Fin S117x64.rank) ∈ gather_S117x64_S1024x128x1_S1024x128x64_2_0_n_n_0_2_164.startIndexMap by decide)]
    simp only [Nat.zero_add, Nat.add_zero]
    rfl

/-- The embedded features at `(b, j, d)`: entry `d` of the table row that node `j`'s id selects. -/
theorem feat_apply (x0 : (⟨S1024x128, .i32⟩ : BufTy).Contents (Elt Ideal)) (x2 : (⟨S117x64, .f32⟩ : BufTy).Contents (Elt Ideal))
    (hg : ∀ i, 0 ≤ (x0 i : BitVec 32).toInt) (b : Fin 1024) (j : Fin 128) (d : Fin 64) :
    val_main_v6 (F := Ideal) x0 x2 (ix3 b j d) = x2 (ix2 (row (x0 (ix2 b j))) d) := by
  unfold val_main_v6
  rw [gather_apply, start_apply x0 hg]

/-! ## One layer at a time, over variables -/

/-- A batched product of the adjacency matrices with an array that is `X` on graph `b` is the message passing of `X`. -/
theorem pass_apply (x1 : (⟨S1024x128x128, .f32⟩ : BufTy).Contents (Elt Ideal)) (y : (⟨S1024x128x64, .f32⟩ : BufTy).Contents (Elt Ideal))
    (b : Fin 1024) (X : Fin 128 → Fin 64 → EReal) (hy : ∀ j d, y (ix3 b j d) = X j d) (i : Fin 128) (d : Fin 64) :
    ∑ k : Fin 128, x1 (lidx_main_v7 (ix3 b i d) k) * y (ridx_main_v7 (ix3 b i d) k)
      = pass (fun i j : Fin 128 => (x1 (ix3 b i j) : EReal)) X i d := by
  unfold pass
  refine Finset.sum_congr rfl fun k _ => ?_
  have hl : lidx_main_v7 (ix3 b i d) k = ix3 b i k := funext fun a => by
    match a with
    | ⟨0, _⟩ => rfl
    | ⟨1, _⟩ => rfl
    | ⟨2, _⟩ => rfl
  have hr : ridx_main_v7 (ix3 b i d) k = ix3 b k d := funext fun a => by
    match a with
    | ⟨0, _⟩ => rfl
    | ⟨1, _⟩ => rfl
    | ⟨2, _⟩ => rfl
  rw [hl, hr, hy]

/-- A product with a square weight matrix, contracted over the features of both, of an array that is `X` on graph `b` is
    the linear map of `X`. -/
theorem lin_apply (y : (⟨S1024x128x64, .f32⟩ : BufTy).Contents (Elt Ideal)) (w : (⟨S64x64, .f32⟩ : BufTy).Contents (Elt Ideal))
    (b : Fin 1024) (X : Fin 128 → Fin 64 → EReal) (hy : ∀ i d, y (ix3 b i d) = X i d) (i : Fin 128) (o : Fin 64) :
    ∑ k : Fin 64, y (lidx_main_v8 (ix3 b i o) k) * w (ridx_main_v8 (ix3 b i o) k)
      = lin X (fun o d : Fin 64 => (w (ix2 o d) : EReal)) i o := by
  unfold lin
  refine Finset.sum_congr rfl fun k _ => ?_
  have hl : lidx_main_v8 (ix3 b i o) k = ix3 b i k := funext fun a => by
    match a with
    | ⟨0, _⟩ => rfl
    | ⟨1, _⟩ => rfl
    | ⟨2, _⟩ => rfl
  have hr : ridx_main_v8 (ix3 b i o) k = ix2 o k := funext fun a => by
    match a with
    | ⟨0, _⟩ => rfl
    | ⟨1, _⟩ => rfl
  rw [hl, hr, hy]

/-- The same for the last weight matrix, which has 128 output features. -/
theorem lin_apply_last (y : (⟨S1024x128x64, .f32⟩ : BufTy).Contents (Elt Ideal)) (w : (⟨S128x64, .f32⟩ : BufTy).Contents (Elt Ideal))
    (b : Fin 1024) (X : Fin 128 → Fin 64 → EReal) (hy : ∀ i d, y (ix3 b i d) = X i d) (i : Fin 128) (o : Fin 128) :
    ∑ k : Fin 64, y (lidx_main_v14 (ix3 b i o) k) * w (ridx_main_v14 (ix3 b i o) k)
      = lin X (fun (o : Fin 128) (d : Fin 64) => (w (ix2 o d) : EReal)) i o := by
  unfold lin
  refine Finset.sum_congr rfl fun k _ => ?_
  have hl : lidx_main_v14 (ix3 b i o) k = ix3 b i k := funext fun a => by
    match a with
    | ⟨0, _⟩ => rfl
    | ⟨1, _⟩ => rfl
    | ⟨2, _⟩ => rfl
  have hr : ridx_main_v14 (ix3 b i o) k = ix2 o k := funext fun a => by
    match a with
    | ⟨0, _⟩ => rfl
    | ⟨1, _⟩ => rfl
  rw [hl, hr, hy]

/-- The maximum with the constant 0 of an array that is `X` on graph `b` is the rectifier of `X`. -/
theorem relu_apply (v : EReal) (X : Fin 128 → Fin 64 → EReal) (i : Fin 128) (o : Fin 64) (hv : v = X i o) :
    FloatOps.maximumf (F := Ideal) (φ := .f32) v (FloatOps.ofBits .f32 0x00000000#32) = relu X i o := by
  unfold relu
  rw [hv]
  show max (X i o) (Ideal.ofBits .f32 0x00000000#32) = max (X i o) 0
  rw [Ideal.ofBits_zero_f32]

/-! ## The reference's arrays on graph `b` -/

section Layers

variable (x0 : (⟨S1024x128, .i32⟩ : BufTy).Contents (Elt Ideal)) (x1 : (⟨S1024x128x128, .f32⟩ : BufTy).Contents (Elt Ideal))
  (x2 : (⟨S117x64, .f32⟩ : BufTy).Contents (Elt Ideal)) (x3 x4 : (⟨S64x64, .f32⟩ : BufTy).Contents (Elt Ideal))
  (x5 : (⟨S128x64, .f32⟩ : BufTy).Contents (Elt Ideal)) (b : Fin 1024)

/-- Graph `b`'s adjacency matrix. -/
abbrev adj : Fin 128 → Fin 128 → EReal := fun i j => (x1 (ix3 b i j) : EReal)
/-- Graph `b`'s node features: the table rows its ids select. -/
abbrev feat : Fin 128 → Fin 64 → EReal := fun j d => (x2 (ix2 (row (x0 (ix2 b j))) d) : EReal)
/-- A square weight matrix by its coordinates. -/
abbrev wsq (w : (⟨S64x64, .f32⟩ : BufTy).Contents (Elt Ideal)) : Fin 64 → Fin 64 → EReal := fun o d => (w (ix2 o d) : EReal)
/-- The last weight matrix by its coordinates. -/
abbrev wlast : Fin 128 → Fin 64 → EReal := fun o d => (x5 (ix2 o d) : EReal)

variable (hg : ∀ i, 0 ≤ (x0 i : BitVec 32).toInt)
include hg

/-- Round 1, message passing. -/
theorem v7_apply (i : Fin 128) (d : Fin 64) :
    val_main_v7 (F := Ideal) x0 x1 x2 (ix3 b i d) = pass (adj x1 b) (feat x0 x2 b) i d := by
  rw [val_main_v7_apply]
  exact pass_apply x1 _ b _ (fun j d => feat_apply x0 x2 hg b j d) i d

/-- Round 1, linear map. -/
theorem v8_apply (i : Fin 128) (o : Fin 64) :
    val_main_v8 (F := Ideal) x0 x1 x2 x3 (ix3 b i o) = lin (pass (adj x1 b) (feat x0 x2 b)) (wsq x3) i o := by
  rw [val_main_v8_apply]
  exact lin_apply _ x3 b _ (fun i d => v7_apply x0 x1 x2 b hg i d) i o

/-- Round 1, rectifier. -/
theorem v9_apply (i : Fin 128) (o : Fin 64) :
    val_main_v9 (F := Ideal) x0 x1 x2 x3 (ix3 b i o) = relu (lin (pass (adj x1 b) (feat x0 x2 b)) (wsq x3)) i o := by
  rw [val_main_v9_apply, val_main_call0_v0_apply, val_main_call0_cst_apply]
  exact relu_apply _ _ i o (v8_apply x0 x1 x2 x3 b hg i o)

/-- Round 2, message passing. -/
theorem v10_apply (i : Fin 128) (d : Fin 64) :
    val_main_v10 (F := Ideal) x0 x1 x2 x3 (ix3 b i d)
      = pass (adj x1 b) (relu (lin (pass (adj x1 b) (feat x0 x2 b)) (wsq x3))) i d := by
  rw [val_main_v10_apply]
  exact pass_apply x1 _ b _ (fun j d => v9_apply x0 x1 x2 x3 b hg j d) i d

/-- Round 2, linear map. -/
theorem v11_apply (i : Fin 128) (o : Fin 64) :
    val_main_v11 (F := Ideal) x0 x1 x2 x3 x4 (ix3 b i o)
      = lin (pass (adj x1 b) (relu (lin (pass (adj x1 b) (feat x0 x2 b)) (wsq x3)))) (wsq x4) i o := by
  rw [val_main_v11_apply]
  exact lin_apply _ x4 b _ (fun i d => v10_apply x0 x1 x2 x3 b hg i d) i o

/-- Round 2, rectifier. -/
theorem v12_apply (i : Fin 128) (o : Fin 64) :
    val_main_v12 (F := Ideal) x0 x1 x2 x3 x4 (ix3 b i o)
      = relu (lin (pass (adj x1 b) (relu (lin (pass (adj x1 b) (feat x0 x2 b)) (wsq x3)))) (wsq x4)) i o := by
  rw [val_main_v12_apply, val_main_call1_v0_apply, val_main_call1_cst_apply]
  exact relu_apply _ _ i o (v11_apply x0 x1 x2 x3 x4 b hg i o)

/-- Round 3, message passing. -/
theorem v13_apply (i : Fin 128) (d : Fin 64) :
    val_main_v13 (F := Ideal) x0 x1 x2 x3 x4 (ix3 b i d)
      = pass (adj x1 b) (relu (lin (pass (adj x1 b) (relu (lin (pass (adj x1 b) (feat x0 x2 b)) (wsq x3)))) (wsq x4))) i d := by
  rw [val_main_v13_apply]
  exact pass_apply x1 _ b _ (fun j d => v12_apply x0 x1 x2 x3 x4 b hg j d) i d

/-- Round 3, linear map. -/
theorem v14_apply (i : Fin 128) (o : Fin 128) :
    val_main_v14 (F := Ideal) x0 x1 x2 x3 x4 x5 (ix3 b i o)
      = lin (pass (adj x1 b) (relu (lin (pass (adj x1 b) (relu (lin (pass (adj x1 b) (feat x0 x2 b)) (wsq x3)))) (wsq x4))))
          (wlast x5) i o := by
  rw [val_main_v14_apply]
  exact lin_apply_last _ x5 b _ (fun i d => v13_apply x0 x1 x2 x3 x4 b hg i d) i o

end Layers

/-! ## The result -/

/-- With non-negative ids, the reference's result at (b, o) is the readout of graph b. -/
theorem result_apply (x0 : (⟨S1024x128, .i32⟩ : BufTy).Contents (Elt Ideal)) (x1 : (⟨S1024x128x128, .f32⟩ : BufTy).Contents (Elt Ideal))
    (x2 : (⟨S117x64, .f32⟩ : BufTy).Contents (Elt Ideal)) (x3 x4 : (⟨S64x64, .f32⟩ : BufTy).Contents (Elt Ideal))
    (x5 : (⟨S128x64, .f32⟩ : BufTy).Contents (Elt Ideal)) (hg : ∀ i, 0 ≤ (x0 i : BitVec 32).toInt) (b : Fin 1024) (o : Fin 128) :
    val_main_v15 (F := Ideal) x0 x1 x2 x3 x4 x5 (ix2 b o) =
      readout (fun i j : Fin 128 => (x1 (ix3 b i j) : EReal)) (fun (j : Fin 128) (d : Fin 64) => (x2 (ix2 (row (x0 (ix2 b j))) d) : EReal))
        (fun o d : Fin 64 => (x3 (ix2 o d) : EReal)) (fun o d : Fin 64 => (x4 (ix2 o d) : EReal)) (fun (o : Fin 128) (d : Fin 64) => (x5 (ix2 o d) : EReal)) o := by
  rw [val_main_v15_apply, val_main_cst_apply]
  show Ideal.ofBits .f32 0x00000000#32 + _ = _
  rw [Ideal.ofBits_zero_f32, zero_add]
  unfold readout
  refine Finset.sum_congr rfl fun i _ => ?_
  have hi : idx_main_v15 (ix2 b o) i = ix3 b i o := funext fun a => by
    match a with
    | ⟨0, _⟩ => rfl
    | ⟨1, _⟩ => rfl
    | ⟨2, _⟩ => rfl
  rw [hi]
  exact v14_apply x0 x1 x2 x3 x4 x5 b hg i o

end Cert.ReferenceIdeal.RefValue

end
-- ==== Proof.Body.lean ====
/-
  The kernel body's arithmetic, read entry by entry.

  The body works on 64 graphs at once. For graph `b` of the block it
    * builds a one-hot row per node from the node's id and multiplies it into the table of features, which
      selects the table row of that id (a sum over the 117 rows in which one term survives);
    * passes messages twice (a batched matrix product with the adjacency block), with a rectifier after the first
      passing and the second linear map and a rectifier after the second;
    * applies the third linear map, and sums over the nodes with each node weighted by the column sum of the
      adjacency matrix.
  The nodes of all 64 graphs are laid side by side for the unbatched matrix products: node `j` of graph `b` is row
  `128 b + j` of a matrix with 8192 rows. Read at an entry, every matrix product into a zero accumulator is a plain
  sum of products, and the body's result for graph `b` is the specification's rearranged readout.
-/
import proofs.«424819_j10505490006484_3_alg».proof.Proof.Gen.KernelIdeal.Skeleton
import proofs.«424819_j10505490006484_3_alg».proof.Proof.GraphNet
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.GraphNet
open scoped BigOperators

/-! ## Rows of the side-by-side layout -/

/-- Node `j` of graph `b` as a row of the 8192-row layout. -/
def flat (b : Fin 64) (j : Fin 128) : Fin 8192 := ⟨b.val * 128 + j.val, by omega⟩

section Casts
variable {α : Type}

/-- A [64,128,n] array laid out as [8192,n]: row `128 b + j` is entry `(b, j)`. -/
theorem cast_flat117 (x : S64x128x117.Idx → α) (h : S64x128x117.ShapeCasts S8192x117) (b : Fin 64) (j : Fin 128) (k : Fin 117) :
    shapeCast S8192x117 x h (ix2 (flat b j) k) = x (ix3 b j k) :=
  shapeCast_apply x h _ _ (by rw [Shape.rowMajor_val_three, Shape.rowMajor_val_two]; rfl)

theorem cast_flat64 (x : S64x128x64.Idx → α) (h : S64x128x64.ShapeCasts S8192x64) (b : Fin 64) (j : Fin 128) (k : Fin 64) :
    shapeCast S8192x64 x h (ix2 (flat b j) k) = x (ix3 b j k) :=
  shapeCast_apply x h _ _ (by rw [Shape.rowMajor_val_three, Shape.rowMajor_val_two]; rfl)

/-- And back: entry `(b, j)` of the [64,128,n] array is row `128 b + j`. -/
theorem cast_unflat64 (x : S8192x64.Idx → α) (h : S8192x64.ShapeCasts S64x128x64) (b : Fin 64) (j : Fin 128) (k : Fin 64) :
    shapeCast S64x128x64 x h (ix3 b j k) = x (ix2 (flat b j) k) :=
  shapeCast_apply x h _ _ (by rw [Shape.rowMajor_val_three, Shape.rowMajor_val_two]; rfl)

theorem cast_unflat128 (x : S8192x128.Idx → α) (h : S8192x128.ShapeCasts S64x128x128) (b : Fin 64) (j : Fin 128) (k : Fin 128) :
    shapeCast S64x128x128 x h (ix3 b j k) = x (ix2 (flat b j) k) :=
  shapeCast_apply x h _ _ (by rw [Shape.rowMajor_val_three, Shape.rowMajor_val_two]; rfl)

/-- A trailing unit axis added to a [64,128] array. -/
theorem cast_col (x : S64x128.Idx → α) (h : S64x128.ShapeCasts S64x128x1) (b : Fin 64) (j : Fin 128) (z : Fin 1) :
    shapeCast S64x128x1 x h (ix3 b j z) = x (ix2 b j) :=
  shapeCast_apply x h _ _ (by
    rw [Shape.rowMajor_val_three, Shape.rowMajor_val_two]
    have := z.isLt
    show b.val * 128 + j.val = (b.val * 128 + j.val) * 1 + z.val
    omega)

/-- The unit axis broadcast along 117 or 128 entries. -/
theorem bcast_col117 (x : S64x128x1.Idx → α) (h : S64x128x1.Broadcasts S64x128x117) (b : Fin 64) (j : Fin 128) (k : Fin 117) :
    broadcastTo S64x128x117 x h (ix3 b j k) = x (ix3 b j 0) :=
  broadcastTo_apply x h _ _ (fun a => by match a with | ⟨0, _⟩ => rfl | ⟨1, _⟩ => rfl | ⟨2, _⟩ => rfl)

theorem bcast_col128 (x : S64x128x1.Idx → α) (h : S64x128x1.Broadcasts S64x128x128) (b : Fin 64) (j : Fin 128) (k : Fin 128) :
    broadcastTo S64x128x128 x h (ix3 b j k) = x (ix3 b j 0) :=
  broadcastTo_apply x h _ _ (fun a => by match a with | ⟨0, _⟩ => rfl | ⟨1, _⟩ => rfl | ⟨2, _⟩ => rfl)

end Casts

/-! ## The matrix products, read at an entry

Into a zero accumulator a matrix product read at an entry is the sum, over the contracted axis, of the operands'
products. The four lemmas per product below say which operand entries meet at contraction index `k`; they are stated
at the literal axes of each product's dimension record. -/

section Products
variable {φ₁ φ₂ : FTy}

-- [8192,117] × [117,64]: the one-hot rows times the table
theorem lhsT_0 (i : S8192x64.Idx) (q : dot_S8192x117_S117x64_S8192x64_1_0_0_1_n_n.contr.Idx) :
    (dot_S8192x117_S117x64_S8192x64_1_0_0_1_n_n.lhsIdx i q 0).val = (i 0).val := by
  unfold DotDims.lhsIdx
  rw [dif_neg (show ¬(0 : Fin S8192x117.rank) ∈ dot_S8192x117_S117x64_S8192x64_1_0_0_1_n_n.lhsBatch by decide), dif_pos (show (0 : Fin S8192x117.rank) ∈ dot_S8192x117_S117x64_S8192x64_1_0_0_1_n_n.lhsNonContracting by decide)]
  rfl
theorem lhsT_1 (i : S8192x64.Idx) (q : dot_S8192x117_S117x64_S8192x64_1_0_0_1_n_n.contr.Idx) :
    (dot_S8192x117_S117x64_S8192x64_1_0_0_1_n_n.lhsIdx i q 1).val = (q ⟨0, by decide⟩).val :=
  dot_S8192x117_S117x64_S8192x64_1_0_0_1_n_n.lhsIdx_val_of_single rfl i q
theorem rhsT_0 (i : S8192x64.Idx) (q : dot_S8192x117_S117x64_S8192x64_1_0_0_1_n_n.contr.Idx) :
    (dot_S8192x117_S117x64_S8192x64_1_0_0_1_n_n.rhsIdx i q 0).val = (q ⟨0, by decide⟩).val :=
  dot_S8192x117_S117x64_S8192x64_1_0_0_1_n_n.rhsIdx_val_of_single rfl i q
theorem rhsT_1 (i : S8192x64.Idx) (q : dot_S8192x117_S117x64_S8192x64_1_0_0_1_n_n.contr.Idx) :
    (dot_S8192x117_S117x64_S8192x64_1_0_0_1_n_n.rhsIdx i q 1).val = (i 1).val := by
  unfold DotDims.rhsIdx
  rw [dif_neg (show ¬(1 : Fin S117x64.rank) ∈ dot_S8192x117_S117x64_S8192x64_1_0_0_1_n_n.rhsBatch by decide), dif_pos (show (1 : Fin S117x64.rank) ∈ dot_S8192x117_S117x64_S8192x64_1_0_0_1_n_n.rhsNonContracting by decide)]
  rfl

/-- Row `p` of the one-hot matrix times column `q` of the table. -/
theorem mmTable_apply (l : FVec Ideal S8192x117 φ₁) (r : FVec Ideal S117x64 φ₂) (p : Fin 8192) (q : Fin 64) :
    matmul dot_S8192x117_S117x64_S8192x64_1_0_0_1_n_n none l r (constant S8192x64 .f32 0x00000000#32) (ix2 p q)
      = ∑ k : Fin 117, l (ix2 p k) * r (ix2 k q) := by
  simp only [matmul]
  rw [Ideal.matmul_constant_zero_apply, ← Equiv.sum_comp (contrEquiv1 dot_S8192x117_S117x64_S8192x64_1_0_0_1_n_n 117 rfl rfl).symm]
  refine Finset.sum_congr rfl fun k _ => ?_
  have hk := contrEquiv1_symm_val dot_S8192x117_S117x64_S8192x64_1_0_0_1_n_n 117 rfl rfl k
  have el : dot_S8192x117_S117x64_S8192x64_1_0_0_1_n_n.lhsIdx (ix2 p q) ((contrEquiv1 dot_S8192x117_S117x64_S8192x64_1_0_0_1_n_n 117 rfl rfl).symm k) = ix2 p k := funext fun a => Fin.ext (by
    match a with
    | ⟨0, _⟩ => exact lhsT_0 _ _
    | ⟨1, _⟩ => exact (lhsT_1 _ _).trans hk)
  have er : dot_S8192x117_S117x64_S8192x64_1_0_0_1_n_n.rhsIdx (ix2 p q) ((contrEquiv1 dot_S8192x117_S117x64_S8192x64_1_0_0_1_n_n 117 rfl rfl).symm k) = ix2 k q := funext fun a => Fin.ext (by
    match a with
    | ⟨0, _⟩ => exact (rhsT_0 _ _).trans hk
    | ⟨1, _⟩ => exact rhsT_1 _ _)
  rw [el, er]

-- [64,128,128] × [64,128,64], batched over the graphs: message passing
theorem lhsP_0 (i : S64x128x64.Idx) (q : dot_S64x128x128_S64x128x64_S64x128x64_2_1_1_2_0_0.contr.Idx) :
    (dot_S64x128x128_S64x128x64_S64x128x64_2_1_1_2_0_0.lhsIdx i q 0).val = (i 0).val := by
  unfold DotDims.lhsIdx
  rw [dif_pos (show (0 : Fin S64x128x128.rank) ∈ dot_S64x128x128_S64x128x64_S64x128x64_2_1_1_2_0_0.lhsBatch by decide)]
  rfl
theorem lhsP_1 (i : S64x128x64.Idx) (q : dot_S64x128x128_S64x128x64_S64x128x64_2_1_1_2_0_0.contr.Idx) :
    (dot_S64x128x128_S64x128x64_S64x128x64_2_1_1_2_0_0.lhsIdx i q 1).val = (i 1).val := by
  unfold DotDims.lhsIdx
  rw [dif_neg (show ¬(1 : Fin S64x128x128.rank) ∈ dot_S64x128x128_S64x128x64_S64x128x64_2_1_1_2_0_0.lhsBatch by decide), dif_pos (show (1 : Fin S64x128x128.rank) ∈ dot_S64x128x128_S64x128x64_S64x128x64_2_1_1_2_0_0.lhsNonContracting by decide)]
  rfl
theorem lhsP_2 (i : S64x128x64.Idx) (q : dot_S64x128x128_S64x128x64_S64x128x64_2_1_1_2_0_0.contr.Idx) :
    (dot_S64x128x128_S64x128x64_S64x128x64_2_1_1_2_0_0.lhsIdx i q 2).val = (q ⟨0, by decide⟩).val :=
  dot_S64x128x128_S64x128x64_S64x128x64_2_1_1_2_0_0.lhsIdx_val_of_single rfl i q
theorem rhsP_0 (i : S64x128x64.Idx) (q : dot_S64x128x128_S64x128x64_S64x128x64_2_1_1_2_0_0.contr.Idx) :
    (dot_S64x128x128_S64x128x64_S64x128x64_2_1_1_2_0_0.rhsIdx i q 0).val = (i 0).val := by
  unfold DotDims.rhsIdx
  rw [dif_pos (show (0 : Fin S64x128x64.rank) ∈ dot_S64x128x128_S64x128x64_S64x128x64_2_1_1_2_0_0.rhsBatch by decide)]
  rfl
theorem rhsP_1 (i : S64x128x64.Idx) (q : dot_S64x128x128_S64x128x64_S64x128x64_2_1_1_2_0_0.contr.Idx) :
    (dot_S64x128x128_S64x128x64_S64x128x64_2_1_1_2_0_0.rhsIdx i q 1).val = (q ⟨0, by decide⟩).val :=
  dot_S64x128x128_S64x128x64_S64x128x64_2_1_1_2_0_0.rhsIdx_val_of_single rfl i q
theorem rhsP_2 (i : S64x128x64.Idx) (q : dot_S64x128x128_S64x128x64_S64x128x64_2_1_1_2_0_0.contr.Idx) :
    (dot_S64x128x128_S64x128x64_S64x128x64_2_1_1_2_0_0.rhsIdx i q 2).val = (i 2).val := by
  unfold DotDims.rhsIdx
  rw [dif_neg (show ¬(2 : Fin S64x128x64.rank) ∈ dot_S64x128x128_S64x128x64_S64x128x64_2_1_1_2_0_0.rhsBatch by decide), dif_pos (show (2 : Fin S64x128x64.rank) ∈ dot_S64x128x128_S64x128x64_S64x128x64_2_1_1_2_0_0.rhsNonContracting by decide)]
  rfl

/-- Graph `b`: row `i` of its adjacency matrix times column `d` of its features. -/
theorem mmPass_apply (l : FVec Ideal S64x128x128 φ₁) (r : FVec Ideal S64x128x64 φ₂) (b : Fin 64) (i : Fin 128) (d : Fin 64) :
    matmul dot_S64x128x128_S64x128x64_S64x128x64_2_1_1_2_0_0 none l r (constant S64x128x64 .f32 0x00000000#32) (ix3 b i d)
      = ∑ k : Fin 128, l (ix3 b i k) * r (ix3 b k d) := by
  simp only [matmul]
  rw [Ideal.matmul_constant_zero_apply, ← Equiv.sum_comp (contrEquiv1 dot_S64x128x128_S64x128x64_S64x128x64_2_1_1_2_0_0 128 rfl rfl).symm]
  refine Finset.sum_congr rfl fun k _ => ?_
  have hk := contrEquiv1_symm_val dot_S64x128x128_S64x128x64_S64x128x64_2_1_1_2_0_0 128 rfl rfl k
  have el : dot_S64x128x128_S64x128x64_S64x128x64_2_1_1_2_0_0.lhsIdx (ix3 b i d) ((contrEquiv1 dot_S64x128x128_S64x128x64_S64x128x64_2_1_1_2_0_0 128 rfl rfl).symm k) = ix3 b i k := funext fun a => Fin.ext (by
    match a with
    | ⟨0, _⟩ => exact lhsP_0 _ _
    | ⟨1, _⟩ => exact lhsP_1 _ _
    | ⟨2, _⟩ => exact (lhsP_2 _ _).trans hk)
  have er : dot_S64x128x128_S64x128x64_S64x128x64_2_1_1_2_0_0.rhsIdx (ix3 b i d) ((contrEquiv1 dot_S64x128x128_S64x128x64_S64x128x64_2_1_1_2_0_0 128 rfl rfl).symm k) = ix3 b k d := funext fun a => Fin.ext (by
    match a with
    | ⟨0, _⟩ => exact rhsP_0 _ _
    | ⟨1, _⟩ => exact (rhsP_1 _ _).trans hk
    | ⟨2, _⟩ => exact rhsP_2 _ _)
  rw [el, er]

-- [8192,64] × [64,64]: the second linear map
theorem lhsL_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhsL_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhsL_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhsL_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- Row `p` of the node features times column `q` of the (transposed) second weight matrix. -/
theorem mmLin2_apply (l : FVec Ideal S8192x64 φ₁) (r : FVec Ideal S64x64 φ₂) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact lhsL_0 _ _
    | ⟨1, _⟩ => exact (lhsL_1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (rhsL_0 _ _).trans hk
    | ⟨1, _⟩ => exact rhsL_1 _ _)
  rw [el, er]

-- [8192,64] × [64,128]: the third linear map
theorem lhsR_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhsR_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhsR_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhsR_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Row `p` of the node features times column `q` of the (transposed) third weight matrix. -/
theorem mmLin3_apply (l : FVec Ideal S8192x64 φ₁) (r : FVec Ideal S64x128 φ₂) (p : Fin 8192) (q : Fin 128) :
    matmul dot_S8192x64_S64x128_S8192x128_1_0_0_1_n_n none l r (constant S8192x128 .f32 0x00000000#32) (ix2 p q)
      = ∑ k : Fin 64, l (ix2 p k) * r (ix2 k q) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q) ((contrEquiv1 dot_S8192x64_S64x128_S8192x128_1_0_0_1_n_n 64 rfl rfl).symm k) = ix2 p k := funext fun a => Fin.ext (by
    match a with
    | ⟨0, _⟩ => exact lhsR_0 _ _
    | ⟨1, _⟩ => exact (lhsR_1 _ _).trans hk)
  have er : dot_S8192x64_S64x128_S8192x128_1_0_0_1_n_n.rhsIdx (ix2 p q) ((contrEquiv1 dot_S8192x64_S64x128_S8192x128_1_0_0_1_n_n 64 rfl rfl).symm k) = ix2 k q := funext fun a => Fin.ext (by
    match a with
    | ⟨0, _⟩ => exact (rhsR_0 _ _).trans hk
    | ⟨1, _⟩ => exact rhsR_1 _ _)
  rw [el, er]

end Products

/-! ## Lane sums, and the one-hot row -/

/-- Summing a [64,128,128] array over its middle axis. -/
theorem sumMid_apply (src : FVec Ideal S64x128x128 .f32) (h : S64x128x128.Reduces [1] S64x128) (hφ : FKind.Formats .f32)
    (hacc : (0x00000000#32 : BitVec FTy.f32.bits) = FKind.add.neutral .f32 hφ) (b : Fin 64) (o : Fin 128) :
    multiReduction .add [1] S64x128 src 0x00000000#32 h hφ hacc (ix2 b o) = ∑ k : Fin 128, src (ix3 b k o) := by
  refine (Ideal.multiReduction_add_single src 0x00000000#32 h hφ hacc (ix2 b o)).trans ?_
  refine Finset.sum_congr rfl fun k _ => congrArg src (funext fun a => Fin.ext ?_)
  match a with
  | ⟨0, _⟩ => rfl
  | ⟨1, _⟩ => rfl
  | ⟨2, _⟩ => rfl

/-- A comparison of integer vectors at an entry compares the entries. -/
theorem cmpi_apply {s : Shape} {w : Nat} (p : CmpIPredicate) (x y : IVec s w) (i : s.Idx) :
    cmpi p x y i = IntOp.cmpi p (x i) (y i) := rfl

/-- The counter along the last axis of a [64,128,117] array holds, at `(b, j, k)`, the word of `k`. -/
theorem iota_apply (h : S64x128x117.Iotas .tc 32 [2]) (b : Fin 64) (j : Fin 128) (k : Fin 117) :
    iota .tc S64x128x117 32 [2] h (ix3 b j k) = BitVec.ofNat 32 k.val := by
  show BitVec.ofNat 32 (0 * _ + k.val) = _
  rw [Nat.zero_mul, Nat.zero_add]

/-- An entry of a one-hot row: the equality test's bit, widened and converted, is 1 where the words agree and 0 elsewhere. -/
theorem onehot_entry (g y : BitVec 32) :
    (FloatOps.sitofp (F := Ideal) .f32 ((IntOp.cmpi .eq g y).setWidth 32) : EReal) = if g = y then 1 else 0 := by
  show (((((IntOp.cmpi .eq g y).setWidth 32).toInt : ℝ)) : EReal) = _
  unfold IntOp.cmpi
  by_cases h : g = y
  · subst h; simp
  · have hb : (g == y) = false := beq_eq_false_iff_ne.mpr h
    simp [h, hb]

/-- A one-hot row times a column of the table selects the entry of the row's id. -/
theorem sum_onehot (r : Fin 117) (f : Fin 117 → EReal) :
    ∑ k : Fin 117, (if BitVec.ofNat 32 r.val = BitVec.ofNat 32 k.val then (1 : EReal) else 0) * f k = f r := by
  rw [Finset.sum_eq_single r]
  · rw [if_pos rfl, one_mul]
  · intro k _ hk
    rw [if_neg, zero_mul]
    intro h
    apply hk
    have := congrArg BitVec.toNat h
    simp only [BitVec.toNat_ofNat] at this
    have h1 := r.isLt; have h2 := k.isLt
    apply Fin.ext; omega
  · intro h; exact absurd (Finset.mem_univ r) h

/-! ## The body's result -/

set_option maxHeartbeats 1000000 in
/-- The body's result for graph `b` of the block, at output feature `o`: the rearranged readout of that graph's
    adjacency matrix, over the table rows `r b j` its ids select (`hr`: the ids are the words of those row numbers) and
    the transposed weight matrices. -/
theorem pay_apply (x0 : Vec Ideal S64x128x128 .f32) (x1 : Vec Ideal S64x128 .i32) (x2 : Vec Ideal S117x64 .f32)
    (x3 : Vec Ideal S64x64 .f32) (x4 : Vec Ideal S64x128 .f32) (r : Fin 64 → Fin 128 → Fin 117)
    (hr : ∀ b j, x1 (ix2 b j) = BitVec.ofNat 32 (r b j).val) (b : Fin 64) (o : Fin 128) :
    k0_pay1 (k0_pay2 x0 x1 x2 x3 x4) (k0_pay3 x0) (ix2 b o) =
      foldedReadout (fun i j : Fin 128 => (x0 (ix3 b i j) : EReal)) (fun (j : Fin 128) (d : Fin 64) => (x2 (ix2 (r b j) d) : EReal))
        (fun o d : Fin 64 => (x3 (ix2 d o) : EReal)) (fun (o : Fin 128) (d : Fin 64) => (x4 (ix2 d o) : EReal)) o := by
  unfold k0_pay1 k0_pay2 k0_pay3
  refine (sumMid_apply _ _ _ _ b o).trans ?_
  -- name the counter and the column sums, and read each at an entry
  generalize hio : iota Kind.tc S64x128x117 32 [2] iota_S64x128x117_d2_w32 = io
  have hio' : ∀ (j : Fin 128) (k : Fin 117), io (ix3 b j k) = BitVec.ofNat 32 k.val := fun j k => by
    subst hio; exact iota_apply _ b j k
  generalize hcs : multiReduction (F := Ideal) (φ := .f32) FKind.add [1] S64x128 x0 0x00000000#32 reduces_S64x128x128_S64x128 (.inl rfl) rfl = cs
  have hcs' : ∀ j : Fin 128, cs (ix2 b j) = ∑ i : Fin 128, x0 (ix3 b i j) := fun j => by
    subst hcs; exact sumMid_apply x0 _ _ _ b j
  simp only [mulf_apply, bcast_col128, cast_col, cast_unflat128, mmLin3_apply, truncf_apply, maximumf_apply,
    broadcast_apply, mmLin2_apply, cast_flat64, mmPass_apply, cast_unflat64, mmTable_apply, cast_flat117, sitofp_apply,
    extui_apply, cmpi_apply, bcast_col117, shapeCast_self, hio', hcs', onehot_entry, hr, sum_onehot, Ideal.ofBits_def,
    Ideal.ofBits_zero_f32]
  unfold foldedReadout lin relu pass
  rfl

end Cert.KernelIdeal.Body

end
-- ==== Proof.Host.lean ====
/-
  What the kernel's windows find in their arrays when the region is entered.

  Before the region the program clips the ids into the table's row range, multiplies the embedding table by the
  transposed first weight matrix, and transposes the other two weight matrices. Read entry by entry:
    * the clipped id `min 116 (max 0 g)` (signed) is the 32-bit word of the row number `row g`;
    * entry `(v, o)` of the projected table is `Σ_d E v d · W₁ o d`;
    * entry `(d, o)` of a transposed weight matrix is entry `(o, d)` of the matrix.
-/
import proofs.«424819_j10505490006484_3_alg».proof.Proof.Gen.KernelIdeal.Frame
import proofs.«424819_j10505490006484_3_alg».proof.Proof.GraphNet
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Host

open Cert.KernelIdeal Cert.KernelIdeal.Gen
open Idealize.ShloMosaic Idealize.ShloMosaic.TcCoe Idealize.ShloMosaic.ValueIdx Idealize.SL.Sem Cert.GraphNet
open scoped BigOperators

variable (m : (ℓ : Loc nD τ sig) → Buf (Elt Ideal) ℓ)

/-! ## The arrays, by name

The program's six arguments as launched, and the four arrays the host operations make for the region. -/

/-- The ids, as launched. -/
abbrev ids (c : Dev nD) : IVec S1024x128 32 := m ((c : Thread nD τ).loc main_arg0)
/-- The adjacency matrices, as launched. -/
abbrev adj (c : Dev nD) : FVec Ideal S1024x128x128 .f32 := m ((c : Thread nD τ).loc main_arg1)
/-- The embedding table, as launched. -/
abbrev emb (c : Dev nD) : FVec Ideal S117x64 .f32 := m ((c : Thread nD τ).loc main_arg2)
/-- The three weight matrices, as launched. -/
abbrev w₁ (c : Dev nD) : FVec Ideal S64x64 .f32 := m ((c : Thread nD τ).loc main_arg3)
abbrev w₂ (c : Dev nD) : FVec Ideal S64x64 .f32 := m ((c : Thread nD τ).loc main_arg4)
abbrev w₃ (c : Dev nD) : FVec Ideal S128x64 .f32 := m ((c : Thread nD τ).loc main_arg5)
/-- The clipped ids the region finds. -/
abbrev idsV (c : Dev nD) : IVec S1024x128 32 := V m c main_v0
/-- The adjacency matrices the region finds. -/
abbrev adjV (c : Dev nD) : FVec Ideal S1024x128x128 .f32 := V m c main_arg1
/-- The projected table the region finds. -/
abbrev tableV (c : Dev nD) : FVec Ideal S117x64 .f32 := V m c main_v2
/-- The transposed second and third weight matrices the region finds. -/
abbrev w₂V (c : Dev nD) : FVec Ideal S64x64 .f32 := V m c main_v3
abbrev w₃V (c : Dev nD) : FVec Ideal S64x128 .f32 := V m c main_v4

theorem adjV_eq (c : Dev nD) : adjV m c = adj m c := V_main_arg1 m c

/-- An entry of the ids' array as the region finds it: the id clipped below at 0 and above at 116, as signed words. -/
theorem ids_apply (c : Dev nD) (i : S1024x128.Idx) :
    idsV m c i = IntOp.minsi 116#32 (IntOp.maxsi 0#32 (ids m c i)) := by
  dsimp only [idsV, ids, V]
  simp only [hostOps0, hostOps0_1, hostOps0_2, List.flatten_cons, List.flatten_nil, List.append_nil, List.cons_append,
    List.nil_append]
  after_results
  rfl

/-- Clipping an id into `[0, 116]` as a signed word gives the word of the row number the id selects. -/
theorem clip_eq_row (g : BitVec 32) : IntOp.minsi 116#32 (IntOp.maxsi 0#32 g) = BitVec.ofNat 32 (row g).val := by
  have hlt := g.isLt
  have hI := BitVec.toInt_eq_toNat_cond g
  have h116 : (116#32 : BitVec 32).toInt = 116 := by decide
  have h0' : (0#32 : BitVec 32).toInt = 0 := by decide
  rw [row_val]
  unfold IntOp.minsi IntOp.maxsi
  by_cases h0 : g.slt 0#32 = true
  · have hneg : g.toInt < 0 := by simpa [BitVec.slt, h0'] using h0
    rw [if_pos h0, if_neg (by decide)]
    have : g.toInt.toNat = 0 := by omega
    rw [this]; rfl
  · have hnn : 0 ≤ g.toInt := by
      have : ¬ g.toInt < 0 := by simpa [BitVec.slt, h0'] using h0
      omega
    rw [if_neg h0]
    by_cases h1 : (116#32 : BitVec 32).slt g = true
    · have hbig : 116 < g.toInt := by simpa [BitVec.slt, h116] using h1
      rw [if_pos h1]
      have : min g.toInt.toNat 116 = 116 := by omega
      rw [this]
    · have hsmall : g.toInt ≤ 116 := by
        have : ¬ 116 < g.toInt := by simpa [BitVec.slt, h116] using h1
        omega
      rw [if_neg h1]
      apply BitVec.eq_of_toNat_eq
      rw [BitVec.toNat_ofNat]
      split at hI <;> omega

/-- So an entry of the ids' array the region finds is the word of the row its id selects. -/
theorem ids_row (c : Dev nD) (i : S1024x128.Idx) : idsV m c i = BitVec.ofNat 32 (row (ids m c i)).val :=
  (ids_apply m c i).trans (clip_eq_row _)

/-! ## The projected table -/

theorem lhsE_0 (i : S117x64.Idx) (q : dot_S117x64_S64x64_S117x64_1_0_0_1_n_n.contr.Idx) :
    (dot_S117x64_S64x64_S117x64_1_0_0_1_n_n.lhsIdx i q 0).val = (i 0).val := by
  unfold DotDims.lhsIdx
  rw [dif_neg (show ¬(0 : Fin S117x64.rank) ∈ dot_S117x64_S64x64_S117x64_1_0_0_1_n_n.lhsBatch by decide), dif_pos (show (0 : Fin S117x64.rank) ∈ dot_S117x64_S64x64_S117x64_1_0_0_1_n_n.lhsNonContracting by decide)]
  rfl
theorem lhsE_1 (i : S117x64.Idx) (q : dot_S117x64_S64x64_S117x64_1_0_0_1_n_n.contr.Idx) :
    (dot_S117x64_S64x64_S117x64_1_0_0_1_n_n.lhsIdx i q 1).val = (q ⟨0, by decide⟩).val :=
  dot_S117x64_S64x64_S117x64_1_0_0_1_n_n.lhsIdx_val_of_single rfl i q
theorem rhsE_0 (i : S117x64.Idx) (q : dot_S117x64_S64x64_S117x64_1_0_0_1_n_n.contr.Idx) :
    (dot_S117x64_S64x64_S117x64_1_0_0_1_n_n.rhsIdx i q 0).val = (q ⟨0, by decide⟩).val :=
  dot_S117x64_S64x64_S117x64_1_0_0_1_n_n.rhsIdx_val_of_single rfl i q
theorem rhsE_1 (i : S117x64.Idx) (q : dot_S117x64_S64x64_S117x64_1_0_0_1_n_n.contr.Idx) :
    (dot_S117x64_S64x64_S117x64_1_0_0_1_n_n.rhsIdx i q 1).val = (i 1).val := by
  unfold DotDims.rhsIdx
  rw [dif_neg (show ¬(1 : Fin S64x64.rank) ∈ dot_S117x64_S64x64_S117x64_1_0_0_1_n_n.rhsBatch by decide), dif_pos (show (1 : Fin S64x64.rank) ∈ dot_S117x64_S64x64_S117x64_1_0_0_1_n_n.rhsNonContracting by decide)]
  rfl

/-- A transposed [64,64] matrix at `(d, o)` is the matrix at `(o, d)`. -/
theorem transpose64_apply {α : Type} (x : S64x64.Idx → α) (h : S64x64.Transposes [1, 0] S64x64) (d o : Fin 64) :
    transpose S64x64 [1, 0] x h (ix2 d o) = x (ix2 o d) :=
  transpose_apply [1, 0] x h (ix2 d o) (ix2 o d) (fun b => by match b with | ⟨0, _⟩ => rfl | ⟨1, _⟩ => rfl)

/-- A transposed [128,64] matrix at `(d, o)` is the matrix at `(o, d)`. -/
theorem transpose128_apply {α : Type} (x : S128x64.Idx → α) (h : S128x64.Transposes [1, 0] S64x128) (d : Fin 64) (o : Fin 128) :
    transpose S64x128 [1, 0] x h (ix2 d o) = x (ix2 o d) :=
  transpose_apply [1, 0] x h (ix2 d o) (ix2 o d) (fun b => by match b with | ⟨0, _⟩ => rfl | ⟨1, _⟩ => rfl)

/-- The table the region finds: the embedding table times the transposed first weight matrix, entry `(v, o)` being
    `Σ_d E v d · W₁ o d`. -/
theorem table_apply (c : Dev nD) (v : Fin 117) (o : Fin 64) :
    tableV m c (ix2 v o) = ∑ d : Fin 64, emb m c (ix2 v d) * w₁ m c (ix2 o d) := by
  dsimp only [tableV, emb, w₁, V]
  simp only [hostOps0, hostOps0_1, hostOps0_2, List.flatten_cons, List.flatten_nil, List.append_nil, List.cons_append,
    List.nil_append]
  after_results
  simp only [Host.dotGeneral]
  rw [Ideal.dotGeneral_apply, ← Equiv.sum_comp (contrEquiv1 dot_S117x64_S64x64_S117x64_1_0_0_1_n_n 64 rfl rfl).symm]
  refine Finset.sum_congr rfl fun k _ => ?_
  have hk := contrEquiv1_symm_val dot_S117x64_S64x64_S117x64_1_0_0_1_n_n 64 rfl rfl k
  have el : dot_S117x64_S64x64_S117x64_1_0_0_1_n_n.lhsIdx (ix2 v o) ((contrEquiv1 dot_S117x64_S64x64_S117x64_1_0_0_1_n_n 64 rfl rfl).symm k) = ix2 v k := funext fun a => Fin.ext (by
    match a with
    | ⟨0, _⟩ => exact lhsE_0 _ _
    | ⟨1, _⟩ => exact (lhsE_1 _ _).trans hk)
  have er : dot_S117x64_S64x64_S117x64_1_0_0_1_n_n.rhsIdx (ix2 v o) ((contrEquiv1 dot_S117x64_S64x64_S117x64_1_0_0_1_n_n 64 rfl rfl).symm k) = ix2 k o := funext fun a => Fin.ext (by
    match a with
    | ⟨0, _⟩ => exact (rhsE_0 _ _).trans hk
    | ⟨1, _⟩ => exact rhsE_1 _ _)
  rw [el, er, transpose64_apply]

/-! ## The transposed weight matrices -/

theorem w2t_apply (c : Dev nD) (d o : Fin 64) : w₂V m c (ix2 d o) = w₂ m c (ix2 o d) := by
  dsimp only [w₂V, w₂, V]
  simp only [hostOps0, hostOps0_1, hostOps0_2, List.flatten_cons, List.flatten_nil, List.append_nil, List.cons_append,
    List.nil_append]
  after_results
  exact transpose64_apply _ _ d o

theorem w3t_apply (c : Dev nD) (d : Fin 64) (o : Fin 128) : w₃V m c (ix2 d o) = w₃ m c (ix2 o d) := by
  dsimp only [w₃V, w₃, V]
  simp only [hostOps0, hostOps0_1, hostOps0_2, List.flatten_cons, List.flatten_nil, List.append_nil, List.cons_append,
    List.nil_append]
  after_results
  exact transpose128_apply _ _ d o

end Cert.KernelIdeal.Host

end
-- ==== Proof.Blocks.lean ====
/-
  From the body's result on one block to the whole result array.

  The grid has 16 points. Point `t` is handed rows `64 t … 64 t + 63` of the adjacency array and of the clipped ids, and
  the whole projected table and transposed weight matrices; it writes rows `64 t … 64 t + 63` of the result. So row
  `p` of the block at point `t` is graph `64 t + p`, the body's result for it is the rearranged readout of that graph,
  and since the 16 row blocks tile the result array, the array ends holding, at `(b, o)`, the rearranged readout of graph
  `b` at feature `o`.
-/
import proofs.«424819_j10505490006484_3_alg».proof.Proof.Gen.KernelIdeal.Value
import proofs.«424819_j10505490006484_3_alg».proof.Proof.Body
import proofs.«424819_j10505490006484_3_alg».proof.Proof.Host
import Idealize.ShloMosaic.Lib.Pipeline.Value
import Idealize.ShloMosaic.Lib.Tactic

noncomputable section

namespace Cert.KernelIdeal.Blocks

open Cert.KernelIdeal Cert.KernelIdeal.Gen Cert.KernelIdeal.Value Cert.KernelIdeal.Host
open Idealize.ShloMosaic Idealize.ShloMosaic.TcCoe Idealize.ShloMosaic.ValueIdx Idealize.SL.Sem Cert.GraphNet
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The result array -/

/-- The rearranged readout of graph `b` at feature `o`, over the arrays the region finds. -/
def outAt (c : Dev nD) (b : Fin 1024) (o : Fin 128) : EReal :=
  foldedReadout (fun i j : Fin 128 => adjV m c (ix3 b i j))
    (fun (j : Fin 128) (d : Fin 64) => tableV m c (ix2 (row (ids m c (ix2 b j))) d))
    (fun o d : Fin 64 => w₂V m c (ix2 d o)) (fun (o : Fin 128) (d : Fin 64) => w₃V m c (ix2 d o)) o

/-- The same as an array over the result's shape. -/
def outArr (c : Dev nD) : FVec Ideal S1024x128 .f32 :=
  fun i => outAt m c ⟨(i 0).val, idx2_lt0 i⟩ ⟨(i 1).val, idx2_lt1 i⟩

/-! ## The blocks at a point -/

/-- Where each window's block sits at point `t`, decided over the 16 points: the adjacency, id and result windows move
    with `t` along the graphs' axis; the table and the weights stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block at point `t` is graph `64 t + p`. -/
def graphOf (t : Fin cfg0.N) (p : Fin 64) : Fin 1024 :=
  ⟨64 * t.val + p.val, by have h : t.val < 16 := t.isLt; omega⟩

/-- The input blocks at a point, by name. -/
abbrev adjBlk (c : Dev nD) (t : Fin cfg0.N) : Vec Ideal S64x128x128 .f32 := iblk m c 0 t
abbrev idsBlk (c : Dev nD) (t : Fin cfg0.N) : Vec Ideal S64x128 .i32 := iblk m c 1 t
abbrev tableBlk (c : Dev nD) (t : Fin cfg0.N) : Vec Ideal S117x64 .f32 := iblk m c 2 t
abbrev w₂Blk (c : Dev nD) (t : Fin cfg0.N) : Vec Ideal S64x64 .f32 := iblk m c 3 t
abbrev w₃Blk (c : Dev nD) (t : Fin cfg0.N) : Vec Ideal S64x128 .f32 := iblk m c 4 t

theorem adjBlk_apply (c : Dev nD) (t : Fin cfg0.N) (p : Fin 64) (i j : Fin 128) :
    adjBlk m c t (ix3 p i j) = adjV m c (ix3 (graphOf t p) i j) := by
  obtain ⟨e0, e1, e2, -⟩ := idx_facts t
  show V m c main_arg1 (((cfg0.win 0).blk t).view.emb (ix3 p i j)) = V m c main_arg1 (ix3 (graphOf t p) i j)
  congr 1
  funext a; apply Fin.ext
  match a with
  | ⟨0, _⟩ => show win0_0.index t (0 : Fin 3) * 64 + 1 * p.val = 64 * t.val + p.val; omega
  | ⟨1, _⟩ => show win0_0.index t (1 : Fin 3) * 128 + 1 * i.val = i.val; omega
  | ⟨2, _⟩ => show win0_0.index t (2 : Fin 3) * 128 + 1 * j.val = j.val; omega

theorem idsBlk_apply (c : Dev nD) (t : Fin cfg0.N) (p : Fin 64) (j : Fin 128) :
    idsBlk m c t (ix2 p j) = idsV m c (ix2 (graphOf t p) j) := by
  obtain ⟨-, -, -, e0, e1, -⟩ := idx_facts t
  show V m c main_v0 (((cfg0.win 1).blk t).view.emb (ix2 p j)) = V m c main_v0 (ix2 (graphOf t p) j)
  congr 1
  funext a; apply Fin.ext
  match a with
  | ⟨0, _⟩ => show win0_1.index t (0 : Fin 2) * 64 + 1 * p.val = 64 * t.val + p.val; omega
  | ⟨1, _⟩ => show win0_1.index t (1 : Fin 2) * 128 + 1 * j.val = j.val; omega

theorem tableBlk_apply (c : Dev nD) (t : Fin cfg0.N) (v : Fin 117) (d : Fin 64) :
    tableBlk m c t (ix2 v d) = tableV m c (ix2 v d) := by
  obtain ⟨-, -, -, -, -, e0, e1, -⟩ := idx_facts t
  show V m c main_v2 (((cfg0.win 2).blk t).view.emb (ix2 v d)) = V m c main_v2 (ix2 v d)
  congr 1
  funext a; apply Fin.ext
  match a with
  | ⟨0, _⟩ => show win0_2.index t (0 : Fin 2) * 117 + 1 * v.val = v.val; omega
  | ⟨1, _⟩ => show win0_2.index t (1 : Fin 2) * 64 + 1 * d.val = d.val; omega

theorem w₂Blk_apply (c : Dev nD) (t : Fin cfg0.N) (d o : Fin 64) :
    w₂Blk m c t (ix2 d o) = w₂V m c (ix2 d o) := by
  obtain ⟨-, -, -, -, -, -, -, e0, e1, -⟩ := idx_facts t
  show V m c main_v3 (((cfg0.win 3).blk t).view.emb (ix2 d o)) = V m c main_v3 (ix2 d o)
  congr 1
  funext a; apply Fin.ext
  match a with
  | ⟨0, _⟩ => show win0_3.index t (0 : Fin 2) * 64 + 1 * d.val = d.val; omega
  | ⟨1, _⟩ => show win0_3.index t (1 : Fin 2) * 64 + 1 * o.val = o.val; omega

theorem w₃Blk_apply (c : Dev nD) (t : Fin cfg0.N) (d : Fin 64) (o : Fin 128) :
    w₃Blk m c t (ix2 d o) = w₃V m c (ix2 d o) := by
  obtain ⟨-, -, -, -, -, -, -, -, -, e0, e1, -⟩ := idx_facts t
  show V m c main_v4 (((cfg0.win 4).blk t).view.emb (ix2 d o)) = V m c main_v4 (ix2 d o)
  congr 1
  funext a; apply Fin.ext
  match a with
  | ⟨0, _⟩ => show win0_4.index t (0 : Fin 2) * 64 + 1 * d.val = d.val; omega
  | ⟨1, _⟩ => show win0_4.index t (1 : Fin 2) * 128 + 1 * o.val = o.val; omega

/-! ## What a point writes back -/

/-- Point `t` writes back block `t` of the result array: for row `p` of its block the body computes the rearranged
    readout of graph `64 t + p`, whose clipped ids are the words of the table rows they select. -/
theorem flushed_eq (c : Dev nD) (t : Fin cfg0.N) :
    (dats m 0 c).flushed 5 t = ((cfg0.win 5).blk t).view.read (Elt Ideal) (outArr m c) := by
  obtain ⟨-, -, -, -, -, -, -, -, -, -, -, e0, e1⟩ := idx_facts t
  rw [Value.flushed5]
  unfold out0_5
  rw [View.canon_unit_zero hz2]
  simp only [View.ld_unit_zero (S := S64x128x128) hz3, View.ld_unit_zero (S := S64x128) hz2,
    View.ld_unit_zero (S := S117x64) hz2, View.ld_unit_zero (S := S64x64) hz2]
  funext y
  obtain ⟨p, q, rfl⟩ : ∃ (p : Fin 64) (q : Fin 128), y = ix2 p q := ⟨y 0, y 1, eq_ix2 y⟩
  show Cert.KernelIdeal.Gen.k0_pay1 (Cert.KernelIdeal.Gen.k0_pay2 (adjBlk m c t) (idsBlk m c t) (tableBlk m c t) (w₂Blk m c t) (w₃Blk m c t))
      (Cert.KernelIdeal.Gen.k0_pay3 (adjBlk m c t)) (ix2 p q) = outArr m c (((cfg0.win 5).blk t).view.emb (ix2 p q))
  refine (Cert.KernelIdeal.Body.pay_apply (adjBlk m c t) (idsBlk m c t) (tableBlk m c t) (w₂Blk m c t) (w₃Blk m c t)
    (fun b j => row (ids m c (ix2 (graphOf t b) j)))
    (fun b j => (idsBlk_apply m c t b j).trans (ids_row m c _)) p q).trans ?_
  have hemb : ((cfg0.win 5).blk t).view.emb (ix2 p q) = ix2 (graphOf t p) q := by
    funext a; apply Fin.ext
    match a with
    | ⟨0, _⟩ => show win0_5.index t (0 : Fin 2) * 64 + 1 * p.val = 64 * t.val + p.val; omega
    | ⟨1, _⟩ => show win0_5.index t (1 : Fin 2) * 128 + 1 * q.val = q.val; omega
  rw [hemb]
  show _ = outAt m c (graphOf t p) q
  unfold outAt
  simp only [adjBlk_apply, tableBlk_apply, w₂Blk_apply, w₃Blk_apply]

/-! ## The blocks tile the array -/

/-- An index of the result array is in point `t`'s block iff each coordinate is in the block's range on its axis. -/
theorem mem_blk (t : Fin cfg0.N) (i : S1024x128.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v5).slice (win0_5.rect t)).set ↔ _
  rw [View.set_slice_whole, Rect.mem_set_unit]
  exact Iff.rfl

/-- Every index of the result array is in some point's block: row `b` is in the block of point `b / 64`. -/
theorem cover (i : S1024x128.Idx) : ∃ t : Fin cfg0.N, (cfg0.win 5).flush t = true ∧ i ∈ ((cfg0.win 5).blk t).view.set := by
  have hi0 : (i 0).val < 1024 := (i 0).isLt
  have hi1 : (i 1).val < 128 := (i 1).isLt
  let t : Fin cfg0.N := ⟨(i 0).val / 64, by show (i 0).val / 64 < 16; omega⟩
  obtain ⟨-, -, -, -, -, -, -, -, -, -, -, e0, e1⟩ := idx_facts t
  have ht : t.val = (i 0).val / 64 := rfl
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 128 ≤ (i 1).val ∧ (i 1).val < win0_5.index t (1 : Fin 2) * 128 + 128; omega

/-- So the result array ends holding the rearranged readouts. -/
theorem final (c : Dev nD) : (dats m 0 c).arrAt 5 cfg0.N = outArr m c :=
  (dats m 0 c).arrAt_eq_of_cover 5 (outArr m c) (fun t _ => flushed_eq m c t) cover

/-! ## The run, read -/

/-- Every run of the kernel program ends with the result array at the rearranged readouts and the arguments unchanged. -/
theorem run : θ_run defs (onTc (τ := τ) (main (F := Ideal))) ⟨m, fun _ => 0, ρ⟩ fun r => ∀ c : Dev nD,
      r.2.mem ((c : Thread nD τ).loc main_v5) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  A three-layer graph network with a sum readout: the kernel against its reference.

  The reference looks each node's id up in an embedding table, runs three rounds of "pass messages along the
  adjacency matrix, then apply a linear map node by node" (a rectifier after the first two), and sums the result over
  the nodes. The kernel computes the same numbers in another order: it folds the first linear map into the table
  before the look-up, does the look-up as a product with one-hot rows, and replaces the last message passing and the
  node sum by a weighting of the nodes with the adjacency matrix's column sums. It also clips the ids into the table's
  row range, where the reference's look-up wraps a negative id around and clamps the rest; the two agree on every
  non-negative id, which the precondition grants.

  On the extended reals the two orders agree because, under the precondition, every input entry is a real number:
  the rearrangements (`Cert.GraphNet.foldedReadout_eq_readout`) are laws of the reals. The kernel's result array is read
  off its run block by block (Body, Host, Blocks), the reference's off its run index by index (Reference), and what the
  precondition says of the inputs is read off its printed form (Inputs). Nothing was rewritten when the kernel was
  idealized, so that conjunct is trivial; the three programs' frames are the generated ones.
-/
import proofs.«424819_j10505490006484_3_alg».proof.Defs
import proofs.«424819_j10505490006484_3_alg».proof.Proof.Gen.Kernel
import proofs.«424819_j10505490006484_3_alg».proof.Proof.Gen.Kernel.Skeleton
import proofs.«424819_j10505490006484_3_alg».proof.Proof.Gen.Kernel.Launch
import proofs.«424819_j10505490006484_3_alg».proof.Proof.Gen.Kernel.Points
import proofs.«424819_j10505490006484_3_alg».proof.Proof.Gen.Kernel.Frame
import proofs.«424819_j10505490006484_3_alg».proof.Proof.Gen.KernelIdeal
import proofs.«424819_j10505490006484_3_alg».proof.Proof.Gen.KernelIdeal.Skeleton
import proofs.«424819_j10505490006484_3_alg».proof.Proof.Gen.KernelIdeal.Launch
import proofs.«424819_j10505490006484_3_alg».proof.Proof.Gen.KernelIdeal.Points
import proofs.«424819_j10505490006484_3_alg».proof.Proof.Gen.KernelIdeal.Frame
import proofs.«424819_j10505490006484_3_alg».proof.Proof.Gen.ReferenceIdeal
import proofs.«424819_j10505490006484_3_alg».proof.Proof.Gen.Pre_finite_inputs
import proofs.«424819_j10505490006484_3_alg».proof.Proof.Gen.KernelIdeal.Value
import proofs.«424819_j10505490006484_3_alg».proof.Proof.Gen.ReferenceIdeal.Run
import proofs.«424819_j10505490006484_3_alg».proof.Proof.Gen.ReferenceIdeal.Read
import proofs.«424819_j10505490006484_3_alg».proof.Proof.GraphNet
import proofs.«424819_j10505490006484_3_alg».proof.Proof.Inputs
import proofs.«424819_j10505490006484_3_alg».proof.Proof.Reference
import proofs.«424819_j10505490006484_3_alg».proof.Proof.Blocks
import Idealize.ShloMosaic.Adequacy
import Idealize.ShloMosaic.Init

noncomputable section

namespace Cert.Proof

open Idealize.ShloMosaic Idealize.ShloMosaic.ValueIdx Idealize.SL.Sem Cert.GraphNet
open Cert.KernelIdeal.Host Cert.KernelIdeal.Blocks

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's result array holds, at graph `b` and feature `o`, the rearranged readout over the projected table; the
    reference's holds the readout. With real entries and non-negative ids they are one number. -/
theorem algebraic : Cert.algebraic_KernelIdeal_ReferenceIdeal := by
  intro m ρ m' ρ' hpre hagree
  refine ⟨fun c => outArr m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨hA, hE, hW₁, hW₂, hW₃, hg⟩ := Cert.Inputs.of_pre _ _ _ _ _ _ (hpre c)
  rw [Cert.ReferenceIdeal.Read.val_main_v15_eq, a0, a1, a2, a3, a4, a5]
  funext i
  obtain ⟨b, o, rfl⟩ : ∃ (b : Fin 1024) (o : Fin 128), i = ix2 b o := ⟨i 0, i 1, eq_ix2 i⟩
  rw [Cert.ReferenceIdeal.RefValue.result_apply _ _ _ _ _ _ hg b o]
  show _ = foldedReadout (fun i j : Fin 128 => adjV m c (ix3 b i j))
    (fun (j : Fin 128) (d : Fin 64) => tableV m c (ix2 (row (ids m c (ix2 b j))) d))
    (fun o d : Fin 64 => w₂V m c (ix2 d o)) (fun (o : Fin 128) (d : Fin 64) => w₃V m c (ix2 d o)) o
  -- the arrays the region finds, in terms of the arguments: the adjacency matrices untouched, the table's row the
  -- first linear map of the embedding row, the other two weight matrices transposed
  have hAdj : (fun i j : Fin 128 => adjV m c (ix3 b i j)) = fun i j : Fin 128 => adj m c (ix3 b i j) := by
    funext i j; exact congrFun (adjV_eq m c) _
  have hP : (fun (j : Fin 128) (d : Fin 64) => tableV m c (ix2 (row (ids m c (ix2 b j))) d))
      = lin (ι := Fin 128) (δ := Fin 64) (ο := Fin 64) (fun (j : Fin 128) (d : Fin 64) => emb m c (ix2 (row (ids m c (ix2 b j))) d)) (fun o d : Fin 64 => w₁ m c (ix2 o d)) := by
    funext j d; rw [table_apply]; rfl
  have hT₂ : (fun o d : Fin 64 => w₂V m c (ix2 d o)) = fun o d : Fin 64 => w₂ m c (ix2 o d) := by
    funext o d; exact w2t_apply m c d o
  have hT₃ : (fun (o : Fin 128) (d : Fin 64) => w₃V m c (ix2 d o)) = fun (o : Fin 128) (d : Fin 64) => w₃ m c (ix2 o d) := by
    funext o d; exact w3t_apply m c d o
  rw [hAdj, hP, hT₂, hT₃]
  symm
  refine congrFun (foldedReadout_eq_readout ?_ ?_ ?_ ?_ ?_) o
  · intro i j; exact hA _
  · intro j d; exact hE _
  · intro o d; exact hW₁ _
  · intro o d; exact hW₂ _
  · intro o d; exact hW₃ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
